-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x4096x4096 : Shape := ⟨3, ![8, 4096, 4096]⟩
abbrev S8x2048x1 : Shape := ⟨3, ![8, 2048, 1]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S8x2048x1 : S_.BroadcastsInDim S8x2048x1 (![] : Fin 0 → Fin S8x2048x1.rank)
  reducesTo_S8x2048x1_S_d0_1_2 : S8x2048x1.ReducesTo [0, 1, 2] S_

variable [Facts]

def fn {F : FTy → Type} [FloatOps F] (main_arg0 : FVec F S8x2048x256 .f32) (main_arg1 : FVec F S8x4096x4096 .f32) (main_arg2 : IVec S8x2048x1 32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_c_2 : IVec S_ 32 := constantI S_ 32 0#32
  let main_v9 : IVec S8x2048x1 32 := broadcastInDim S8x2048x1 ![] bcast_S_S8x2048x1 main_c_2
  let main_v10 : IVec S8x2048x1 1 := cmpi .sge main_arg2 main_v9
  let main_c_3 : IVec S_ 1 := constantI S_ 1 1#1
  let main_v11 : IVec S_ 1 := (fun x v => Host.reduce IntOp.andi x v reducesTo_S8x2048x1_S_d0_1_2 h_S_) main_v10 main_c_3
  let main_v12 : IVec S_ 1 := andi main_v8 main_v11
  main_v12
-- ==== Kernel.lean ====
abbrev S8x2048x256 : Shape := ⟨3, ![8, 2048, 256]⟩
abbrev S8x4096x4096 : Shape := ⟨3, ![8, 4096, 4096]⟩
abbrev S8x2048x1 : Shape := ⟨3, ![8, 2048, 1]⟩
abbrev S8x2048 : Shape := ⟨2, ![8, 2048]⟩
abbrev S8x1x2048 : Shape := ⟨3, ![8, 1, 2048]⟩
abbrev S8x4096x256 : Shape := ⟨3, ![8, 4096, 256]⟩
abbrev S1x1x2048 : Shape := ⟨3, ![1, 1, 2048]⟩
abbrev S1x2048x256 : Shape := ⟨3, ![1, 2048, 256]⟩
abbrev S1x1024x256 : Shape := ⟨3, ![1, 1024, 256]⟩
abbrev S1024x1 : Shape := ⟨2, ![1024, 1]⟩
abbrev S2048 : Shape := ⟨1, ![2048]⟩
abbrev S1x2048 : Shape := ⟨2, ![1, 2048]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x256, .f32⟩
  | .hbm, ⟨1, _⟩ => ⟨S8x4096x4096, .f32⟩
  | .hbm, ⟨2, _⟩ => ⟨S8x2048x1, .i32⟩
  | .hbm, ⟨3, _⟩ => ⟨S8x2048, .i32⟩
  | .hbm, ⟨4, _⟩ => ⟨S8x1x2048, .i32⟩
  | .hbm, ⟨5, _⟩ => ⟨S8x2048x256, .bf16⟩
  | .hbm, ⟨6, _⟩ => ⟨S8x2048x256, .f32⟩
  | .hbm, ⟨7, _⟩ => ⟨S8x2048x256, .f32⟩
  | .hbm, ⟨8, _⟩ => ⟨S8x2048x256, .bf16⟩
  | .hbm, ⟨9, _⟩ => ⟨S8x4096x256, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1024x256, .f32⟩
  | .local _ .vmem, ⟨7, _⟩ => ⟨S1x1024x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x1_S8x2048 : S8x2048x1.ShapeCasts S8x2048
  shapeCasts_S8x2048_S8x1x2048 : S8x2048.ShapeCasts S8x1x2048
  bitsLt_bf16_f32 : FTy.bits .bf16 < FTy.bits .f32
  iota_S1024x1_d0_w32 : S1024x1.Iotas .tc 32 [0]
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1024x1_S1024x2048 : S1024x1.Broadcasts S1024x2048
  broadcasts_S1x2048_S1024x2048 : S1x2048.Broadcasts S1024x2048
  natLt_1_32 : 1 < 32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S8x1x2048.size a
  hwx0_0 : ∀ i : grid0.Coords, EltTy.bits .i32 = 32 ∨ (Rect.block (s := S8x1x2048) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .bf16 = 32 ∨ (Rect.block (s := S8x2048x256) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x256.size a
  hwx0_2 : ∀ i : grid0.Coords, EltTy.bits .bf16 = 32 ∨ (Rect.block (s := S8x2048x256) S1x2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x4096x256.size a
  hwx0_3 : ∀ i : grid0.Coords, EltTy.bits .f32 = 32 ∨ (Rect.block (s := S8x4096x256) S1x1024x256.size (cc0_transform_3 i) (hinb0_3 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v1) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x4096x4096 : Shape := ⟨3, ![8, 4096, 4096]⟩
abbrev S8x2048x1 : Shape := ⟨3, ![8, 2048, 1]⟩
abbrev S8x2048 : Shape := ⟨2, ![8, 2048]⟩
abbrev S8 : Shape := ⟨1, ![8]⟩
abbrev S8x1 : Shape := ⟨2, ![8, 1]⟩
abbrev S_ : Shape := ⟨0, ![]⟩
abbrev S8x4096x256 : Shape := ⟨3, ![8, 4096, 256]⟩
abbrev S8x2048x2 : Shape := ⟨3, ![8, 2048, 2]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x4096x4096, .f32⟩
  | .hbm, ⟨2, _⟩ => ⟨S8x2048x1, .i32⟩
  | .hbm, ⟨3, _⟩ => ⟨S8x2048, .i32⟩
  | .hbm, ⟨4, _⟩ => ⟨S8, .i32⟩
  | .hbm, ⟨5, _⟩ => ⟨S8x1, .i32⟩
  | .hbm, ⟨6, _⟩ => ⟨S_, .f32⟩
  | .hbm, ⟨7, _⟩ => ⟨S8x4096x256, .f32⟩
  | .hbm, ⟨8, _⟩ => ⟨S_, .i32⟩
  | .hbm, ⟨9, _⟩ => ⟨S8x1, .i32⟩
  | .hbm, ⟨10, _⟩ => ⟨S8x1, .i1⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S8x1, .i32⟩
  | .hbm, ⟨15, _⟩ => ⟨S_, .i32⟩
  | .hbm, ⟨16, _⟩ => ⟨S8x2048, .i32⟩
  | .hbm, ⟨17, _⟩ => ⟨S8x2048, .i1⟩
  | .hbm, ⟨18, _⟩ => ⟨S_, .i32⟩
  | .hbm, ⟨19, _⟩ => ⟨S8x2048, .i32⟩
  | .hbm, ⟨20, _⟩ => ⟨S8x2048, .i32⟩
  | .hbm, ⟨21, _⟩ => ⟨S8x2048, .i32⟩
  | .hbm, ⟨22, _⟩ => ⟨S8x2048, .i32⟩
  | .hbm, ⟨23, _⟩ => ⟨S8x2048x1, .i32⟩
  | .hbm, ⟨24, _⟩ => ⟨S8x2048x1, .i32⟩
  | .hbm, ⟨25, _⟩ => ⟨S8x2048x2, .i32⟩
  | .hbm, ⟨26, _⟩ => ⟨S8x4096x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  shapeCasts_S8x2048x1_S8x2048 : S8x2048x1.ShapeCasts S8x2048
  bcast_S8_S8x1_0 : S8.BroadcastsInDim S8x1 (![0] : Fin 1 → Fin S8x1.rank)
  bcast_S_S8x4096x256 : S_.BroadcastsInDim S8x4096x256 (![] : Fin 0 → Fin S8x4096x256.rank)
  bcast_S_S8x1 : S_.BroadcastsInDim S8x1 (![] : Fin 0 → Fin S8x1.rank)
  bcast_S_S8x2048 : S_.BroadcastsInDim S8x2048 (![] : Fin 0 → Fin S8x2048.rank)
  bcast_S8x1_S8x2048_0_1 : S8x1.BroadcastsInDim S8x2048 (![0, 1] : Fin 2 → Fin S8x2048.rank)
  bcast_S8x2048_S8x2048x1_0_1 : S8x2048.BroadcastsInDim S8x2048x1 (![0, 1] : Fin 2 → Fin S8x2048x1.rank)
  concatenates_S8x2048x1_S8x2048x1_S8x2048x2_d2 : Shape.Concatenates [S8x2048x1, S8x2048x1] S8x2048x2 2
  scatter_S8x4096x256_S8x2048x2_S8x2048x256_2_01_01_2_wf : ScatterDims.WF S8x4096x256 S8x2048x2 S8x2048x256 [2] [0, 1] [0, 1] 2

variable [Facts₀]

def scatter_S8x4096x256_S8x2048x2_S8x2048x256_2_01_01_2 : ScatterDims S8x4096x256 S8x2048x2 S8x2048x256 where
  updateWindowDims := [2]
  insertedWindowDims := [0, 1]
  scatterDimsToOperandDims := [0, 1]
  indexVectorDim := 2
  wf := scatter_S8x4096x256_S8x2048x2_S8x2048x256_2_01_01_2_wf

class Facts : Prop extends Facts₀ where

variable [Facts]
-- ==== Proof.Domain.lean ====
/-
  What the precondition says of the arguments, element by element.

  The precondition is the conjunction of three `all`s: every entry of `X` has absolute value below `+∞`, every entry
  of `A` likewise, and every entry of `idx` is at least `0` as a signed word. On the extended reals `|x| < +∞` says that
  `x` is a real number (`real_of_abs_lt_top`); that is what lets the kernel's residual `X - X` be `0`. A non-negative
  index word is its own position: the reference's wrap-around of negative positions never applies.
-/
import proofs.«424910_j53309134078318_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Domain

open Cert.Pre_finite_inputs Cert.Pre_finite_inputs.Gen Idealize.ShloMosaic Idealize.ShloMosaic.ValueIdx

instance : Subsingleton S_.Idx := ⟨fun a b => funext fun d => d.elim0⟩

/-- The word `0x7F800000` is `+∞`. -/
theorem ofBits_inf : Ideal.ofBits .f32 0x7F800000#32 = ⊤ := by simp [Ideal.ofBits, Ideal.ieee]

/-- An extended real whose absolute value is below `+∞` is a real number. -/
theorem real_of_abs_lt_top (x : EReal) (h : max x (-x) < ⊤) : ∃ r : ℝ, x = r := by
  induction x using EReal.rec with
  | bot => exact absurd h (by simp)
  | top => exact absurd h (by simp)
  | coe r => exact ⟨r, rfl⟩

/-- An ordered "less than" that came out true is the order's. -/
theorem lt_of_cmp_olt {x y : EReal} (h : Ideal.cmp .olt x y = 1#1) : x < y := by
  change BitVec.ofBool (decide (x < y)) = 1#1 at h
  by_contra hn
  rw [decide_eq_false hn] at h
  exact absurd h (by decide)

/-- Under the precondition every entry of `X` is a real number and every index word is non-negative. -/
theorem of_pre (X : FVec Ideal S8x2048x256 .f32) (A : FVec Ideal S8x4096x4096 .f32) (idx : IVec S8x2048x1 32)
    (h : fn (F := Ideal) X A idx = fun _ => 1#1) :
    (∀ i, ∃ r : ℝ, X i = r) ∧ (∀ i, 0 ≤ (idx i).toInt) := by
  have h0 := congrFun h ix0
  dsimp only [fn] at h0
  obtain ⟨h87, h11⟩ := IntOp.andi_eq_one.1 (show IntOp.andi _ _ = 1#1 from h0)
  obtain ⟨h3, -⟩ := IntOp.andi_eq_one.1 (show IntOp.andi _ _ = 1#1 from h87)
  refine ⟨fun i => ?_, fun i => ?_⟩
  · have e := Host.reduce_andi_all _ _ _ _ _ h3 i
    have e' : Ideal.cmp .olt (max (X i) (-(X i))) (Ideal.ofBits .f32 0x7F800000#32) = 1#1 := e
    rw [ofBits_inf] at e'
    exact real_of_abs_lt_top _ (lt_of_cmp_olt e')
  · have e := Host.reduce_andi_all _ _ _ _ _ h11 i
    have e' : IntOp.cmpi .sge (idx i) 0#32 = 1#1 := e
    have := IntOp.cmpi_sge.1 e'
    simpa using this

end Cert.Pre_finite_inputs.Domain

end
-- ==== Proof.Unpool.lean ====
/-
  GraphUnpool as ONE function of its arguments, and the element facts the two programs' values rest on.

  Row `row` of batch `b` of the unpooled array is the sum of the rows `n` of `X[b]` whose new index `idx[b, n]` is `row`
  (`rowSum`, `unpool`): rows that several old nodes are sent to add up, rows no old node is sent to are zero, and an
  old node whose index names no row of the array (a word that is no `0 … 4095`) goes nowhere.

  The kernel reaches that sum as a matrix product with a one-hot mask: tile `j` compares the column of row numbers
  `0 … 1023` with `idx[b, n] - 1024 j`, in 32-bit words. Subtraction of words is exact modulo `2^32`, so the comparison
  holds exactly when the word `idx[b, n]` IS the word of `1024 j + r` (`shifted_eq_iff`), whatever the word; the mask's
  entry is then the real `1`, else `0` (`oneHot_cast`), and a product with it keeps or drops the term (`sum_oneHot_mul`).
  The reference reaches it as a scatter: an update lands on an element exactly when its start index plus its window
  coordinate is that element's coordinate on every axis (`resultIdx?_eq_some_iff`).
-/
import Idealize.ShloMosaic.PureOps.Ideal
import Idealize.ShloMosaic.PureOps.Ideal.Laws
import Idealize.ShloMosaic.Lib.ValueIdx

noncomputable section

open scoped BigOperators

namespace Cert.Unpool

open Idealize.ShloMosaic Idealize.ShloMosaic.ValueIdx

/-- The shapes of `X`, of `idx` and of the unpooled array. -/
abbrev SX : Shape := ⟨3, ![8, 2048, 256]⟩
abbrev SN : Shape := ⟨3, ![8, 2048, 1]⟩
abbrev SY : Shape := ⟨3, ![8, 4096, 256]⟩

/-- Element `(b, row, f)` of the unpooled array: the sum over the old nodes `n` of batch `b` whose new index is the word
    of `row`, of `X[b, n, f]`. -/
def rowSum (X : SX.Idx → EReal) (idx : SN.Idx → BitVec 32) (b : Fin 8) (row : Fin 4096) (f : Fin 256) : EReal :=
  ∑ n : Fin 2048, if idx (ix3 b n (0 : Fin 1)) = BitVec.ofNat 32 row.val then X (ix3 b n f) else 0

/-- The unpooled array. -/
def unpool (X : SX.Idx → EReal) (idx : SN.Idx → BitVec 32) : SY.Idx → EReal :=
  fun i => rowSum X idx (i 0) (i 1) (i 2)

/-! ## The mask's entry -/

/-- An equality test of two words, widened to 32 bits and read signed, is the integer `1` or `0`. -/
theorem oneHot_toInt (a b : BitVec 32) : ((IntOp.cmpi .eq a b).setWidth 32).toInt = if a = b then 1 else 0 := by
  show ((BitVec.ofBool (a == b)).setWidth 32).toInt = _
  by_cases h : a = b
  · rw [if_pos h, show (a == b) = true from by simpa using h]; decide
  · rw [if_neg h, show (a == b) = false from by simpa using h]; decide

/-- … so converted to a float at the ideal values it is the real `1` or `0`. -/
theorem oneHot_cast (a b : BitVec 32) :
    ((((IntOp.cmpi .eq a b).setWidth 32).toInt : ℝ) : EReal) = if a = b then 1 else 0 := by
  rw [oneHot_toInt]
  by_cases h : a = b
  · rw [if_pos h, if_pos h]; simp
  · rw [if_neg h, if_neg h]; simp

/-- Row `r` of tile `j` meets the shifted index `w - 1024 j` exactly when `w` is the word of `1024 j + r`: words
    subtract modulo `2^32`, so nothing is asked of `w`. -/
theorem shifted_eq_iff (w : BitVec 32) (j r : Nat) :
    BitVec.ofNat 32 r = IntOp.subi w (Scalar.muli (BitVec.ofNat 32 j) 1024#32) ↔ w = BitVec.ofNat 32 (j * 1024 + r) := by
  show BitVec.ofNat 32 r = w - BitVec.ofNat 32 j * BitVec.ofNat 32 1024 ↔ _
  rw [BitVec.ofNat_add, BitVec.ofNat_mul]
  constructor
  · intro h
    calc w = w - BitVec.ofNat 32 j * BitVec.ofNat 32 1024 + BitVec.ofNat 32 j * BitVec.ofNat 32 1024 :=
          (BitVec.sub_add_cancel _ _).symm
      _ = BitVec.ofNat 32 r + BitVec.ofNat 32 j * BitVec.ofNat 32 1024 := by rw [← h]
      _ = _ := BitVec.add_comm _ _
  · intro h
    rw [h, BitVec.add_comm]
    exact (BitVec.add_sub_cancel _ _).symm

/-- A sum of products with a `0/1` mask keeps the terms the mask selects. -/
theorem sum_oneHot_mul {K : Nat} (p : Fin K → Prop) [DecidablePred p] (x : Fin K → EReal) :
    ∑ k : Fin K, (if p k then (1 : EReal) else 0) * x k = ∑ k : Fin K, if p k then x k else 0 :=
  Finset.sum_congr rfl fun k _ => by
    by_cases h : p k
    · rw [if_pos h, if_pos h, one_mul]
    · rw [if_neg h, if_neg h, zero_mul]

/-- A sum of products with zeros is zero. -/
theorem sum_mul_zero {K : Nat} (y : Fin K → EReal) : ∑ k : Fin K, y k * (0 : EReal) = 0 :=
  Finset.sum_eq_zero fun k _ => mul_zero _

/-! ## Where a scatter's update lands -/

/-- An update lands on element `i` of the operand exactly when, on every axis, its start index plus its window coordinate
    is `i`'s coordinate: an update that leaves the operand on some axis lands nowhere. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq]
    constructor
    · intro e a
      have := congrArg (fun g => ((g a).val : Int)) e
      simp only at this
      rw [← this, Int.toNat_of_nonneg (h a).1]
    · intro e
      funext a
      apply Fin.ext
      show (d.start j idx a + d.window j a).toNat = (i a).val
      rw [e a]; rfl
  · rename_i h
    constructor
    · intro e; exact absurd e (by simp)
    · intro e
      exact absurd (fun a => by rw [e a]; exact ⟨Int.natCast_nonneg _, by exact_mod_cast (i a).isLt⟩) h

end Cert.Unpool

end
-- ==== Proof.Payload.lean ====
/-
  One tile of the kernel's output at an element.

  The body stores, for grid point `(b, j)`, the `1024 × 256` tile `mask · X_hi + mask · X_lo`, where
  `mask[r, n] = 1` when row `r` of the tile is the row `idx[b, n]` names and `0` otherwise, and `X_hi`, `X_lo` are the
  two blocks the wrapper split `X[b]` into. At the ideal values a matrix product into a zero accumulator is the plain
  sum over the contracted axis (`matmul_at`), and the mask's entry is the real `1` or `0` according to whether the word
  `idx[b, n]` is the word of `1024 j + r` (`mask_at`); so element `(r, f)` of the tile is the sum of `X_hi[n, f]` over
  the old nodes `n` sent to that row, plus the same sum of `X_lo` (`tile_at`).
-/
import proofs.«424910_j53309134078318_2_alg».proof.Proof.Gen.KernelIdeal.Skeleton
import proofs.«424910_j53309134078318_2_alg».proof.Proof.Unpool
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Unpool

/-! ## Two layout operations read at an index -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-! ## The matrix product at an element -/

theorem lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
theorem lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The tile's matrix product into the zero accumulator, at `(r, f)`: the sum over the old nodes `n` of the left
    operand at `(r, n)` times the right at `(n, f)`. -/
theorem matmul_at (L : FVec Ideal S1024x2048 .bf16) (R : FVec Ideal S2048x256 .bf16) (r : Fin 1024) (f : Fin 256) :
    matmul dot_S1024x2048_S2048x256_S1024x256_1_0_0_1_n_n none L R (constant S1024x256 .f32 0x00000000#32) (ix2 r f)
      = ∑ n : Fin 2048, L (ix2 r n) * R (ix2 n f) := by
  show FloatOps.matmul dot_S1024x2048_S2048x256_S1024x256_1_0_0_1_n_n none L R (constant S1024x256 .f32 0x00000000#32) (ix2 r f) = _
  rw [Ideal.matmul_constant_zero_apply, ← Equiv.sum_comp (contrEquiv1 dot_S1024x2048_S2048x256_S1024x256_1_0_0_1_n_n 2048 rfl rfl).symm]
  refine Finset.sum_congr rfl fun n _ => ?_
  have hn := contrEquiv1_symm_val dot_S1024x2048_S2048x256_S1024x256_1_0_0_1_n_n 2048 rfl rfl n
  have el : dot_S1024x2048_S2048x256_S1024x256_1_0_0_1_n_n.lhsIdx (ix2 r f) ((contrEquiv1 dot_S1024x2048_S2048x256_S1024x256_1_0_0_1_n_n 2048 rfl rfl).symm n) = ix2 r n :=
    funext fun a => Fin.ext (by
      match a with
      | ⟨0, _⟩ => exact lhs_0 _ _
      | ⟨1, _⟩ => exact (lhs_1 _ _).trans hn)
  have er : dot_S1024x2048_S2048x256_S1024x256_1_0_0_1_n_n.rhsIdx (ix2 r f) ((contrEquiv1 dot_S1024x2048_S2048x256_S1024x256_1_0_0_1_n_n 2048 rfl rfl).symm n) = ix2 n f :=
    funext fun a => Fin.ext (by
      match a with
      | ⟨0, _⟩ => exact (rhs_0 _ _).trans hn
      | ⟨1, _⟩ => exact rhs_1 _ _)
  rw [el, er]

/-! ## The mask -/

/-- The tile's one-hot mask, as the body builds it from the grid point and the loaded row of indices: the column of
    row numbers compared with the indices shifted by the tile's first row, as a `0/1` float. -/
def mask (i : grid0.Coords) (v1 : Vec Ideal S1x1x2048 .i32) : FVec Ideal S1024x2048 .bf16 :=
  truncf .bf16 (sitofp .f32 (extui 32 (cmpi .eq
    (broadcastTo S1024x2048 (iota .tc S1024x1 32 [0] iota_S1024x1_d0_w32) broadcasts_S1024x1_S1024x2048)
    (broadcastTo S1024x2048 (shapeCast S1x2048 (subi (shapeCast S2048 v1 shapeCasts_S1x1x2048_S2048)
      (broadcast S2048 (Scalar.muli (BitVec.ofNat 32 (i 1).val) 1024#32))) shapeCasts_S2048_S1x2048)
      broadcasts_S1x2048_S1024x2048)) natLt_1_32)) bitsLt_bf16_f32

/-- Entry `(r, n)` of the mask is `1` when the word `idx[n]` is the word of `1024 j + r`, else `0`. -/
theorem mask_at (i : grid0.Coords) (v1 : Vec Ideal S1x1x2048 .i32) (r : Fin 1024) (n : Fin 2048) :
    mask i v1 (ix2 r n)
      = if v1 (ix3 (0 : Fin 1) (0 : Fin 1) n) = BitVec.ofNat 32 ((i 1).val * 1024 + r.val) then 1 else 0 := by
  have ha : broadcastTo S1024x2048 (iota .tc S1024x1 32 [0] iota_S1024x1_d0_w32) broadcasts_S1024x1_S1024x2048 (ix2 r n)
      = BitVec.ofNat 32 r.val := by
    rw [broadcastTo_a1_ab_apply, iota_single_apply]
  have hb : broadcastTo S1024x2048 (shapeCast S1x2048 (subi (shapeCast S2048 v1 shapeCasts_S1x1x2048_S2048)
      (broadcast S2048 (Scalar.muli (BitVec.ofNat 32 (i 1).val) 1024#32))) shapeCasts_S2048_S1x2048)
      broadcasts_S1x2048_S1024x2048 (ix2 r n)
      = IntOp.subi (v1 (ix3 (0 : Fin 1) (0 : Fin 1) n)) (Scalar.muli (BitVec.ofNat 32 (i 1).val) 1024#32) := by
    rw [broadcastTo_1b_ab_apply, shapeCast_a_1a_apply]
    show IntOp.subi (shapeCast S2048 v1 shapeCasts_S1x1x2048_S2048 (ix1 n)) _ = _
    rw [shapeCast_11a_a_apply]
    rfl
  show ((((IntOp.cmpi .eq
      (broadcastTo S1024x2048 (iota .tc S1024x1 32 [0] iota_S1024x1_d0_w32) broadcasts_S1024x1_S1024x2048 (ix2 r n))
      (broadcastTo S1024x2048 (shapeCast S1x2048 (subi (shapeCast S2048 v1 shapeCasts_S1x1x2048_S2048)
        (broadcast S2048 (Scalar.muli (BitVec.ofNat 32 (i 1).val) 1024#32))) shapeCasts_S2048_S1x2048)
        broadcasts_S1x2048_S1024x2048 (ix2 r n))).setWidth 32).toInt : ℝ) : EReal) = _
  rw [ha, hb, oneHot_cast]
  exact if_congr (shifted_eq_iff _ _ _) rfl rfl

/-! ## The tile -/

/-- The stored payload is the two products with one mask, added, with a unit axis in front. -/
theorem pay_eq (i : grid0.Coords) (v1 : Vec Ideal S1x1x2048 .i32) (v13 v15 : Vec Ideal S1x2048x256 .bf16) :
    k0_pay1 (F := Ideal) i v1 v13 v15
      = shapeCast S1x1024x256 (addf
          (matmul dot_S1024x2048_S2048x256_S1024x256_1_0_0_1_n_n none (mask i v1) (shapeCast S2048x256 v13 shapeCasts_S1x2048x256_S2048x256 : FVec Ideal S2048x256 .bf16) (constant S1024x256 .f32 0x00000000#32))
          (matmul dot_S1024x2048_S2048x256_S1024x256_1_0_0_1_n_n none (mask i v1) (shapeCast S2048x256 v15 shapeCasts_S1x2048x256_S2048x256 : FVec Ideal S2048x256 .bf16) (constant S1024x256 .f32 0x00000000#32)))
          shapeCasts_S1024x256_S1x1024x256 := rfl

/-- Element `(r, f)` of the tile at grid point `i`: over the old nodes whose index is the word of `1024 j + r`, the sum
    of the high parts plus the sum of the low parts. -/
theorem tile_at (i : grid0.Coords) (v1 : Vec Ideal S1x1x2048 .i32) (v13 v15 : Vec Ideal S1x2048x256 .bf16)
    (r : Fin 1024) (f : Fin 256) :
    k0_pay1 (F := Ideal) i v1 v13 v15 (ix3 (0 : Fin 1) r f)
      = (∑ n : Fin 2048, if v1 (ix3 (0 : Fin 1) (0 : Fin 1) n) = BitVec.ofNat 32 ((i 1).val * 1024 + r.val)
            then v13 (ix3 (0 : Fin 1) n f) else 0)
        + (∑ n : Fin 2048, if v1 (ix3 (0 : Fin 1) (0 : Fin 1) n) = BitVec.ofNat 32 ((i 1).val * 1024 + r.val)
            then v15 (ix3 (0 : Fin 1) n f) else 0) := by
  rw [pay_eq, shapeCast_ab_1ab_apply, addf_apply, matmul_at, matmul_at]
  simp only [mask_at, shapeCast_1ab_ab_apply]
  rw [sum_oneHot_mul, sum_oneHot_mul]

/-- The tile against the unpooled array: when the loaded row of indices is batch `b`'s, the high block is `X[b]` and the
    low block is zero, element `y` of the tile at grid point `(b, j)` is element `(b, 1024 j + y₁, y₂)` of the unpooled
    array. -/
theorem tile_eq (i : grid0.Coords) (v1 : Vec Ideal S1x1x2048 .i32) (v13 v15 : Vec Ideal S1x2048x256 .bf16)
    (X : SX.Idx → EReal) (idx : SN.Idx → BitVec 32) (b : Fin 8) (hj : (i 1).val < 4)
    (h1 : ∀ n : Fin 2048, v1 (ix3 (0 : Fin 1) (0 : Fin 1) n) = idx (ix3 b n (0 : Fin 1)))
    (h13 : ∀ (n : Fin 2048) (f : Fin 256), v13 (ix3 (0 : Fin 1) n f) = X (ix3 b n f))
    (h15 : ∀ (n : Fin 2048) (f : Fin 256), v15 (ix3 (0 : Fin 1) n f) = 0)
    (y : S1x1024x256.Idx) :
    k0_pay1 (F := Ideal) i v1 v13 v15 y
      = rowSum X idx b ⟨(i 1).val * 1024 + (y 1).val, by have h : (y 1).val < 1024 := (y 1).isLt; omega⟩ (y 2) := by
  obtain ⟨u, r, f, rfl⟩ : ∃ (u : Fin 1) (r : Fin 1024) (f : Fin 256), y = ix3 u r f := ⟨y 0, y 1, y 2, eq_ix3 y⟩
  obtain rfl : u = 0 := Subsingleton.elim _ _
  rw [tile_at]
  simp only [h1, h13, h15, ite_self, Finset.sum_const_zero, add_zero]
  rfl

end Cert.KernelIdeal.Tile

end
-- ==== Proof.KernelValue.lean ====
/-
  The kernel's result array is the unpooled array.

  Before the launch the wrapper lays `idx` out as `[8, 1, 2048]` (two reshapes: entry `(b, 0, n)` is `idx[b, n, 0]`),
  takes `X_hi` as `X` in the narrower format and `X_lo` as `X - X_hi` in it; at the ideal values a change of format is
  the identity, so `X_hi = X`, and `X_lo = X - X`, which is `0` wherever `X` is a real number (`xlo_at`: the one place the
  finiteness of `X` is used; at an infinity the difference would not be `0`).
  Grid point `t = (b, j)` reads the blocks `[b, 0, 0]` of those three arrays and writes back block `[b, j, 0]` of the
  result, a `1 × 1024 × 256` tile; by the tile's element formula it is the same block of `unpool X idx` (`flushed_eq`).
  The 32 blocks tile the result (`cover3`), so the array after the run is `unpool X idx` (`final3`, `run`).
-/
import proofs.«424910_j53309134078318_2_alg».proof.Proof.KernelIdealFrame
import proofs.«424910_j53309134078318_2_alg».proof.Proof.Payload
import Idealize.ShloMosaic.Lib.Pipeline.Value
import Idealize.ShloMosaic.Lib.StableHlo.Run

noncomputable section

namespace Cert.KernelIdeal.Whole

open Cert.KernelIdeal Cert.KernelIdeal.Gen Cert.KernelIdeal.GenP Idealize.ShloMosaic Idealize.ShloMosaic.TcCoe Idealize.SL.Sem
open Idealize.ShloMosaic.ValueIdx Cert.Unpool Cert.KernelIdeal.Tile
open Idealize.ShloMosaic.Pipeline (Dat)

variable (m : (ℓ : Loc nD τ sig) → Buf (Elt Ideal) ℓ) (ρ : Dev nD → PrngReg)

/-- The arguments `X` and `idx` as launched on core `c`. -/
abbrev Xarg (c : Dev nD) : SX.Idx → EReal := m ((c : Thread nD τ).loc main_arg0)
abbrev Iarg (c : Dev nD) : SN.Idx → BitVec 32 := m ((c : Thread nD τ).loc main_arg2)

/-- The three arrays the kernel's input windows stage, as the launch finds them on core `c`: the re-laid indices, the
    high part and the low part of `X`. -/
abbrev Idx3 (c : Dev nD) : IVec S8x1x2048 32 := V m c main_v1
abbrev Xhi (c : Dev nD) : FVec Ideal S8x2048x256 .bf16 := V m c main_v2
abbrev Xlo (c : Dev nD) : FVec Ideal S8x2048x256 .bf16 := V m c main_v5

/-! ## What the wrapper hands the kernel -/

theorem idx3_eq (c : Dev nD) : Idx3 m c
    = shapeCast S8x1x2048 (shapeCast S8x2048 (Iarg m c) shapeCasts_S8x2048x1_S8x2048 : IVec S8x2048 32) shapeCasts_S8x2048_S8x1x2048 := by
  dsimp only [Idx3, V, hostOps0]; after_results <;> rfl

theorem xhi_eq (c : Dev nD) : Xhi m c
    = truncf .bf16 (Xarg m c : FVec Ideal S8x2048x256 .f32) bitsLt_bf16_f32 := by
  dsimp only [Xhi, V, hostOps0]; after_results <;> rfl

theorem xlo_eq (c : Dev nD) : Xlo m c
    = truncf .bf16 (subf (Xarg m c : FVec Ideal S8x2048x256 .f32)
        (extf .f32 (truncf .bf16 (Xarg m c : FVec Ideal S8x2048x256 .f32) bitsLt_bf16_f32 : FVec Ideal S8x2048x256 .bf16) bitsLt_bf16_f32))
        bitsLt_bf16_f32 := by
  dsimp only [Xlo, V, hostOps0]; after_results <;> rfl

/-- Entry `(b, 0, n)` of the re-laid index array is `idx[b, n, 0]`. -/
theorem idx3_at (c : Dev nD) (b : Fin 8) (n : Fin 2048) :
    Idx3 m c (ix3 b (0 : Fin 1) n) = Iarg m c (ix3 b n (0 : Fin 1)) := by
  rw [idx3_eq]
  rw [shapeCast_apply _ shapeCasts_S8x2048_S8x1x2048 (ix3 b (0 : Fin 1) n) (ix2 b n) (by
    rw [Shape.rowMajor_val_three, Shape.rowMajor_val_two]
    show b.val * 2048 + n.val = (b.val * 1 + 0) * 2048 + n.val
    omega)]
  exact shapeCast_apply _ shapeCasts_S8x2048x1_S8x2048 (ix2 b n) (ix3 b n (0 : Fin 1)) (by
    rw [Shape.rowMajor_val_three, Shape.rowMajor_val_two]
    show (b.val * 2048 + n.val) * 1 + 0 = b.val * 2048 + n.val
    omega)

/-- The high part is `X` itself. -/
theorem xhi_at (c : Dev nD) (i : S8x2048x256.Idx) : Xhi m c i = Xarg m c i := by
  rw [xhi_eq]; rfl

/-- The low part, `X - X`, is `0` where `X` is a real number. -/
theorem xlo_at (c : Dev nD) (i : S8x2048x256.Idx) (hX : ∃ r : ℝ, Xarg m c i = r) :
    Xlo m c i = 0 := by
  rw [xlo_eq]
  show Xarg m c i - Xarg m c i = 0
  obtain ⟨r, hr⟩ := hX
  rw [hr, ← EReal.coe_sub, sub_self, EReal.coe_zero]

/-! ## The blocks a grid point reads and writes -/

/-- The printed index maps, decided over the 32 grid points: the three inputs' block is `[b, 0, 0]`, the output's
    `[b, j, 0]`. -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 3) = (grid0.coords t 0).val ∧ win0_3.index t (1 : Fin 3) = (grid0.coords t 1).val
    ∧ win0_3.index t (2 : Fin 3) = 0 :=
  (by decide +kernel : ∀ t : Fin grid0.N, _)

/-- Every block of the result is some grid point's. -/
theorem idx_onto3 : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

theorem hz3 : (![0, 0, 0] : Fin 3 → Nat) = fun _ => 0 := funext fun a => by fin_cases a <;> rfl

/-- WHAT POINT `t` WRITES BACK is block `t` of the unpooled array. -/
theorem flushed_eq (c : Dev nD) (hX : ∀ i, ∃ r : ℝ, Xarg m c i = r) (t : Fin cfg0.N) :
    (dats m 0 c).flushed 3 t = ((cfg0.win 3).blk t).view.read (Elt Ideal) (unpool (Xarg m c) (Iarg m c)) := by
  show (cfg0.win 3).cut (grid0.coords t) ((dats m 0 c).after 3 t) = _
  rw [after0_3]
  unfold out0_3
  rw [View.canon_unit_zero hz3]
  simp only [View.ld_unit_zero (S := S1x1x2048) hz3, View.ld_unit_zero (S := S1x2048x256) hz3]
  obtain ⟨a0, a1, a2, b0, b1, b2, c0, c1, c2, d0, d1, d2⟩ := idx_facts t
  have hb : (grid0.coords t 0).val < 8 := (grid0.coords t 0).isLt
  have hj : (grid0.coords t 1).val < 4 := (grid0.coords t 1).isLt
  funext y
  have hy0 : (y 0).val < 1 := (y 0).isLt
  have hy1 : (y 1).val < 1024 := (y 1).isLt
  have hy2 : (y 2).val < 256 := (y 2).isLt
  refine (tile_eq (grid0.coords t) (iblk m c 0 t) (iblk m c 1 t) (iblk m c 2 t) (Xarg m c) (Iarg m c)
    ⟨(grid0.coords t 0).val, hb⟩ hj ?_ ?_ ?_ y).trans ?_
  · intro n
    show Idx3 m c (((cfg0.win 0).blk t).view.emb (ix3 (0 : Fin 1) (0 : Fin 1) n)) = _
    have e : ((cfg0.win 0).blk t).view.emb (ix3 (0 : Fin 1) (0 : Fin 1) n)
        = ix3 (⟨(grid0.coords t 0).val, hb⟩ : Fin 8) (0 : Fin 1) n := by
      funext a; apply Fin.ext
      match a with
      | ⟨0, _⟩ => show win0_0.index t (0 : Fin 3) * 1 + 1 * 0 = (grid0.coords t 0).val; omega
      | ⟨1, _⟩ => show win0_0.index t (1 : Fin 3) * 1 + 1 * 0 = 0; omega
      | ⟨2, _⟩ => show win0_0.index t (2 : Fin 3) * 2048 + 1 * n.val = n.val; omega
    rw [e]
    exact idx3_at m c _ n
  · intro n f
    show Xhi m c (((cfg0.win 1).blk t).view.emb (ix3 (0 : Fin 1) n f)) = _
    have e : ((cfg0.win 1).blk t).view.emb (ix3 (0 : Fin 1) n f)
        = ix3 (⟨(grid0.coords t 0).val, hb⟩ : Fin 8) n f := by
      funext a; apply Fin.ext
      match a with
      | ⟨0, _⟩ => show win0_1.index t (0 : Fin 3) * 1 + 1 * 0 = (grid0.coords t 0).val; omega
      | ⟨1, _⟩ => show win0_1.index t (1 : Fin 3) * 2048 + 1 * n.val = n.val; omega
      | ⟨2, _⟩ => show win0_1.index t (2 : Fin 3) * 256 + 1 * f.val = f.val; omega
    rw [e]
    exact xhi_at m c _
  · intro n f
    show Xlo m c (((cfg0.win 2).blk t).view.emb (ix3 (0 : Fin 1) n f)) = _
    exact xlo_at m c _ (hX _)
  · show rowSum (Xarg m c) (Iarg m c) _ _ _
      = rowSum (Xarg m c) (Iarg m c) ((((cfg0.win 3).blk t).view.emb y) 0) ((((cfg0.win 3).blk t).view.emb y) 1)
          ((((cfg0.win 3).blk t).view.emb y) 2)
    have e0 : (⟨(grid0.coords t 0).val, hb⟩ : Fin 8) = (((cfg0.win 3).blk t).view.emb y) 0 :=
      Fin.ext (by show (grid0.coords t 0).val = win0_3.index t (0 : Fin 3) * 1 + 1 * (y 0).val; omega)
    have e1 : (⟨(grid0.coords t 1).val * 1024 + (y 1).val, by omega⟩ : Fin 4096) = (((cfg0.win 3).blk t).view.emb y) 1 :=
      Fin.ext (by show (grid0.coords t 1).val * 1024 + (y 1).val = win0_3.index t (1 : Fin 3) * 1024 + 1 * (y 1).val; omega)
    have e2 : (y 2 : Fin 256) = (((cfg0.win 3).blk t).view.emb y) 2 :=
      Fin.ext (by show (y 2).val = win0_3.index t (2 : Fin 3) * 256 + 1 * (y 2).val; omega)
    exact congr (congr (congrArg (rowSum (Xarg m c) (Iarg m c)) e0) e1) e2

/-! ## The blocks tile the result -/

/-- An index of the result is in point `t`'s block iff each coordinate is in the block's range on its axis. -/
theorem mem_blk3 (t : Fin cfg0.N) (i : S8x4096x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v6).slice (win0_3.rect t)).set ↔ _
  rw [View.set_slice_whole, Rect.mem_set_unit]
  exact Iff.rfl

/-- Element `(b, row, f)` is in the block of the point `(b, row / 1024)`. -/
theorem cover3 (i : S8x4096x256.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 256 := (i 2).isLt
  obtain ⟨t, ht⟩ := idx_onto3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-- THE RESULT ARRAY after the run is the unpooled array. -/
theorem final3 (c : Dev nD) (hX : ∀ i, ∃ r : ℝ, Xarg m c i = r) :
    (dats m 0 c).arrAt 3 cfg0.N = unpool (Xarg m c) (Iarg m c) :=
  (dats m 0 c).arrAt_eq_of_cover 3 (unpool (Xarg m c) (Iarg m c)) (fun t _ => flushed_eq m c hX t) cover3

/-! ## The run, read -/

/-- Every weakly fair execution terminates with the result at the unpooled array of the arguments, the arguments
    unchanged. -/
theorem run (hX : ∀ c i, ∃ r : ℝ, Xarg m c i = r) :
    θ_run defs (onTc (τ := τ) (main (F := Ideal))) ⟨m, fun _ => 0, ρ⟩ fun r => ∀ c : Dev nD,
      r.2.mem ((c : Thread nD τ).loc main_v6) = unpool (Xarg m c) (Iarg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c (hX c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Whole

end
-- ==== Proof.Scatter.lean ====
/-
  The reference's result array is the unpooled array, when no index word is negative.

  The reference builds, for every old node `(b, n)`, the pair (batch, row) = (`b`, `idx[b, n]`), each component
  passed through the wrap-around of negative positions (`p < 0 ? p + extent : p`), and scatters row `(b, n)` of `X`
  into a zero array at that pair, adding where rows collide. The batch numbers `0 … 7` are never negative
  (`batch_word`), and a non-negative index word is left as it is (`row_word`: the only use of `0 ≤ idx`; a negative
  word in `[-4096, -1]` would be moved to a row of the array, which is where the kernel and the reference part).
  So update `(b', n, f')` lands on element `(b, row, f)` exactly when `b' = b`, `f' = f` and the word `idx[b, n]`, read
  signed, is `row` (`lands_iff`), that is, when it IS the word of `row` (`toInt_eq_iff`); summing `X` over those updates
  is the sum over `n` that defines `unpool` (`scatter_eq_unpool`).
-/
import proofs.«424910_j53309134078318_2_alg».proof.Proof.Gen.ReferenceIdeal.Read
import proofs.«424910_j53309134078318_2_alg».proof.Proof.Unpool
import Idealize.ShloMosaic.Lib.Pipeline.Value
import Idealize.ShloMosaic.Lib.Affine

noncomputable section

open scoped BigOperators

namespace Cert.ReferenceIdeal.Scatter

open Cert.ReferenceIdeal Cert.ReferenceIdeal.Gen Cert.ReferenceIdeal.Read Idealize.ShloMosaic Idealize.ShloMosaic.ValueIdx Cert.Unpool

/-! ## The scatter's dimension numbers at an update index -/

theorem start0 (I : IVec S8x2048x2 32) (b : Fin 8) (n : Fin 2048) (f : Fin 256) :
    scatter_S8x4096x256_S8x2048x2_S8x2048x256_2_01_01_2.start (ix3 b n f) I 0 = (I (ix3 b n (0 : Fin 2))).toInt := by
  unfold ScatterDims.start
  rw [dif_pos (show (0 : Fin S8x4096x256.rank) ∈ scatter_S8x4096x256_S8x2048x2_S8x2048x256_2_01_01_2.scatterDimsToOperandDims by decide)]
  refine congrArg (fun k => (I k).toInt) (funext fun a => ?_)
  match a with
  | ⟨0, _⟩ => rfl
  | ⟨1, _⟩ => rfl
  | ⟨2, _⟩ => rfl

theorem start1 (I : IVec S8x2048x2 32) (b : Fin 8) (n : Fin 2048) (f : Fin 256) :
    scatter_S8x4096x256_S8x2048x2_S8x2048x256_2_01_01_2.start (ix3 b n f) I 1 = (I (ix3 b n (1 : Fin 2))).toInt := by
  unfold ScatterDims.start
  rw [dif_pos (show (1 : Fin S8x4096x256.rank) ∈ scatter_S8x4096x256_S8x2048x2_S8x2048x256_2_01_01_2.scatterDimsToOperandDims by decide)]
  refine congrArg (fun k => (I k).toInt) (funext fun a => ?_)
  match a with
  | ⟨0, _⟩ => rfl
  | ⟨1, _⟩ => rfl
  | ⟨2, _⟩ => rfl

theorem start2 (I : IVec S8x2048x2 32) (b : Fin 8) (n : Fin 2048) (f : Fin 256) :
    scatter_S8x4096x256_S8x2048x2_S8x2048x256_2_01_01_2.start (ix3 b n f) I 2 = 0 := by
  unfold ScatterDims.start
  rw [dif_neg (show ¬(2 : Fin S8x4096x256.rank) ∈ scatter_S8x4096x256_S8x2048x2_S8x2048x256_2_01_01_2.scatterDimsToOperandDims by decide)]

theorem window0 (b : Fin 8) (n : Fin 2048) (f : Fin 256) : scatter_S8x4096x256_S8x2048x2_S8x2048x256_2_01_01_2.window (ix3 b n f) 0 = 0 := by
  unfold ScatterDims.window
  rw [dif_neg (show ¬(0 : Fin S8x4096x256.rank) ∈ scatter_S8x4096x256_S8x2048x2_S8x2048x256_2_01_01_2.sKept by decide)]
theorem window1 (b : Fin 8) (n : Fin 2048) (f : Fin 256) : scatter_S8x4096x256_S8x2048x2_S8x2048x256_2_01_01_2.window (ix3 b n f) 1 = 0 := by
  unfold ScatterDims.window
  rw [dif_neg (show ¬(1 : Fin S8x4096x256.rank) ∈ scatter_S8x4096x256_S8x2048x2_S8x2048x256_2_01_01_2.sKept by decide)]
theorem window2 (b : Fin 8) (n : Fin 2048) (f : Fin 256) : scatter_S8x4096x256_S8x2048x2_S8x2048x256_2_01_01_2.window (ix3 b n f) 2 = f.val := by
  unfold ScatterDims.window
  rw [dif_pos (show (2 : Fin S8x4096x256.rank) ∈ scatter_S8x4096x256_S8x2048x2_S8x2048x256_2_01_01_2.sKept by decide)]
  rfl

/-! ## The two components of the scatter index -/

/-- The wrap-around leaves a batch number as it is: none of `0 … 7` is negative. -/
theorem batch_wrap : ∀ b : Fin 8, Scalar.select (IntOp.cmpi .slt (BitVec.ofNat 32 b.val) 0#32)
    (IntOp.addi (BitVec.ofNat 32 b.val) 8#32) (BitVec.ofNat 32 b.val) = BitVec.ofNat 32 b.val := by decide

/-- The batch component of update `(b, n)`'s index is the word of `b`. -/
theorem batch_word (x2 : IVec S8x2048x1 32) (b : Fin 8) (n : Fin 2048) :
    val_main_v17 (F := Ideal) x2 (ix3 b n (0 : Fin 2)) = BitVec.ofNat 32 b.val := by
  unfold val_main_v17
  rw [concatenate_pair_apply_left (t := S8x2048x2) (s₁ := S8x2048x1) (s₂ := S8x2048x1) (2 : Fin 3) _ _ concatenates_S8x2048x1_S8x2048x1_S8x2048x2_d2 (ix3 b n (0 : Fin 2)) rfl
    (ix3 b n (0 : Fin 1)) (fun c => match c with | ⟨0, _⟩ => rfl | ⟨1, _⟩ => rfl | ⟨2, _⟩ => rfl)]
  rw [val_main_v15_apply, val_main_v14_apply, val_main_v8_apply, val_main_v5_apply, val_main_v7_apply, val_main_v2_apply,
    val_main_v4_apply, val_main_v6_apply, val_main_v1_apply, val_main_c_apply, val_main_c_0_apply]
  exact batch_wrap b

/-- The re-laid index array at `(b, n)` is `idx[b, n, 0]`. -/
theorem v0_at (x2 : IVec S8x2048x1 32) (b : Fin 8) (n : Fin 2048) :
    val_main_v0 (F := Ideal) x2 (ix2 b n) = x2 (ix3 b n (0 : Fin 1)) := by
  rw [val_main_v0_apply]
  refine congrArg x2 (funext fun a => Fin.ext ?_)
  have hb : b.val < 8 := b.isLt
  have hn : n.val < 2048 := n.isLt
  match a with
  | ⟨0, _⟩ => show (b.val * 2048 + n.val) / 2048 = b.val; omega
  | ⟨1, _⟩ => show (b.val * 2048 + n.val) / 1 % 2048 = n.val; omega
  | ⟨2, _⟩ => rfl

/-- The row component of update `(b, n)`'s index is the word `idx[b, n]` itself when that word is not negative. -/
theorem row_word (x2 : IVec S8x2048x1 32) (b : Fin 8) (n : Fin 2048) (h : 0 ≤ (x2 (ix3 b n (0 : Fin 1))).toInt) :
    val_main_v17 (F := Ideal) x2 (ix3 b n (1 : Fin 2)) = x2 (ix3 b n (0 : Fin 1)) := by
  unfold val_main_v17
  rw [concatenate_pair_apply_right (t := S8x2048x2) (s₁ := S8x2048x1) (s₂ := S8x2048x1) (2 : Fin 3) _ _ concatenates_S8x2048x1_S8x2048x1_S8x2048x2_d2 (ix3 b n (1 : Fin 2)) rfl rfl
    (ix3 b n (0 : Fin 1)) (fun c hc => match c with | ⟨0, _⟩ => rfl | ⟨1, _⟩ => rfl | ⟨2, _⟩ => absurd rfl hc) rfl]
  rw [val_main_v16_apply, val_main_v13_apply, val_main_v10_apply, val_main_v12_apply, val_main_v9_apply, val_main_c_1_apply]
  have e : idx_main_v16 (ix3 b n (0 : Fin 1)) = ix2 b n := funext fun a => match a with | ⟨0, _⟩ => rfl | ⟨1, _⟩ => rfl
  rw [e, v0_at]
  have hs : IntOp.cmpi .slt (x2 (ix3 b n (0 : Fin 1))) 0#32 = 0#1 :=
    eq_zero_of_ne_one fun h1 => by
      have := IntOp.cmpi_slt.1 h1
      simp at this
      omega
  rw [hs, select_zero]

/-! ## Where an update lands -/

/-- The word of a small number, read signed, is that number. -/
theorem toInt_ofNat_small (k : Nat) (h : k < 4096) : (BitVec.ofNat 32 k).toInt = (k : Int) := by
  have h2 : (BitVec.ofNat 32 k).toNat = k := by rw [BitVec.toNat_ofNat]; exact Nat.mod_eq_of_lt (by omega)
  rw [BitVec.toInt_eq_toNat_of_lt (by rw [h2]; omega), h2]

/-- A word read signed is a row number below `4096` exactly when it is that number's word. -/
theorem toInt_eq_iff (w : BitVec 32) (row : Fin 4096) :
    w.toInt = (row.val : Int) ↔ w = BitVec.ofNat 32 row.val := by
  constructor
  · intro e
    apply BitVec.eq_of_toInt_eq
    rw [e, toInt_ofNat_small _ row.isLt]
  · intro e
    rw [e, toInt_ofNat_small _ row.isLt]

/-- Update `(b', n, f')` lands on element `(b, row, f)` exactly when it is in batch `b`, in column `f`, and its index
    word is the word of `row`. -/
theorem lands_iff (x2 : IVec S8x2048x1 32) (hx : ∀ i, 0 ≤ (x2 i).toInt) (b' : Fin 8) (n : Fin 2048) (f' : Fin 256)
    (b : Fin 8) (row : Fin 4096) (f : Fin 256) :
    scatter_S8x4096x256_S8x2048x2_S8x2048x256_2_01_01_2.resultIdx? (ix3 b' n f') (val_main_v17 (F := Ideal) x2) = some (ix3 b row f)
      ↔ b' = b ∧ f' = f ∧ x2 (ix3 b' n (0 : Fin 1)) = BitVec.ofNat 32 row.val := by
  rw [resultIdx?_eq_some_iff]
  have hb' : b'.val < 8 := b'.isLt
  have hB : (BitVec.ofNat 32 b'.val).toInt = (b'.val : Int) := toInt_ofNat_small _ (by omega)
  constructor
  · intro h
    have h0 := h 0
    have h1 := h 1
    have h2 := h 2
    rw [start0, window0, batch_word, hB] at h0
    rw [start1, window1, row_word x2 b' n (hx _)] at h1
    rw [start2, window2] at h2
    refine ⟨Fin.ext ?_, Fin.ext ?_, (toInt_eq_iff _ row).1 ?_⟩
    · have : ((b'.val : Int)) + ((0 : ℕ) : Int) = ((b.val : ℕ) : Int) := h0
      omega
    · have : (0 : Int) + ((f'.val : ℕ) : Int) = ((f.val : ℕ) : Int) := h2
      omega
    · have : (x2 (ix3 b' n (0 : Fin 1))).toInt + ((0 : ℕ) : Int) = ((row.val : ℕ) : Int) := h1
      omega
  · rintro ⟨rfl, rfl, e⟩ a
    match a with
    | ⟨0, _⟩ =>
      show scatter_S8x4096x256_S8x2048x2_S8x2048x256_2_01_01_2.start (ix3 b' n f') _ 0 + ((scatter_S8x4096x256_S8x2048x2_S8x2048x256_2_01_01_2.window (ix3 b' n f') 0 : ℕ) : Int) = ((b'.val : ℕ) : Int)
      rw [start0, window0, batch_word, hB]; omega
    | ⟨1, _⟩ =>
      show scatter_S8x4096x256_S8x2048x2_S8x2048x256_2_01_01_2.start (ix3 b' n f') _ 1 + ((scatter_S8x4096x256_S8x2048x2_S8x2048x256_2_01_01_2.window (ix3 b' n f') 1 : ℕ) : Int) = ((row.val : ℕ) : Int)
      rw [start1, window1, row_word x2 b' n (hx _), (toInt_eq_iff _ row).2 e]; omega
    | ⟨2, _⟩ =>
      show scatter_S8x4096x256_S8x2048x2_S8x2048x256_2_01_01_2.start (ix3 b' n f') _ 2 + ((scatter_S8x4096x256_S8x2048x2_S8x2048x256_2_01_01_2.window (ix3 b' n f') 2 : ℕ) : Int) = ((f'.val : ℕ) : Int)
      rw [start2, window2]; omega

/-! ## The scatter is the unpooled array -/

/-- The zero array the reference scatters into. -/
theorem zeros_at (i : S8x4096x256.Idx) : val_main_v3 (F := Ideal) i = 0 := by
  rw [val_main_v3_apply, val_main_cst_apply]
  exact Ideal.ofBits_zero_f32

/-- The reference's scatter-add of `X` into zeros is the unpooled array. -/
theorem scatter_eq_unpool (x0 : FVec Ideal S8x2048x256 .f32) (x2 : IVec S8x2048x1 32) (hx : ∀ i, 0 ≤ (x2 i).toInt) :
    val_main_v18 (F := Ideal) x0 x2 = unpool x0 x2 := by
  funext i
  obtain ⟨b, row, f, rfl⟩ : ∃ (b : Fin 8) (row : Fin 4096) (f : Fin 256), i = ix3 b row f := ⟨i 0, i 1, i 2, eq_ix3 i⟩
  show Ideal.hostScatterAdd scatter_S8x4096x256_S8x2048x2_S8x2048x256_2_01_01_2 (val_main_v3 (F := Ideal)) (val_main_v17 (F := Ideal) x2) x0 (ix3 b row f)
    = rowSum x0 x2 b row f
  unfold Ideal.hostScatterAdd rowSum
  rw [zeros_at, zero_add, ← Finset.sum_filter]
  symm
  refine Finset.sum_nbij' (fun n : Fin 2048 => (ix3 b n f : S8x2048x256.Idx))
    (fun j : S8x2048x256.Idx => (⟨(j 1).val, (j 1).isLt⟩ : Fin 2048)) ?_ ?_ ?_ ?_ ?_
  · intro n hn
    exact Finset.mem_filter.2 ⟨Finset.mem_univ _, (lands_iff x2 hx b n f b row f).2 ⟨rfl, rfl, (Finset.mem_filter.1 hn).2⟩⟩
  · intro j hj
    obtain ⟨b', n, f', rfl⟩ : ∃ (b' : Fin 8) (n : Fin 2048) (f' : Fin 256), j = ix3 b' n f' := ⟨j 0, j 1, j 2, eq_ix3 j⟩
    obtain ⟨rfl, rfl, e⟩ := (lands_iff x2 hx b' n f' b row f).1 (Finset.mem_filter.1 hj).2
    exact Finset.mem_filter.2 ⟨Finset.mem_univ _, e⟩
  · intro n _; rfl
  · intro j hj
    obtain ⟨b', n, f', rfl⟩ : ∃ (b' : Fin 8) (n : Fin 2048) (f' : Fin 256), j = ix3 b' n f' := ⟨j 0, j 1, j 2, eq_ix3 j⟩
    obtain ⟨rfl, rfl, -⟩ := (lands_iff x2 hx b' n f' b row f).1 (Finset.mem_filter.1 hj).2
    rfl
  · intro n _; rfl

end Cert.ReferenceIdeal.Scatter

end
-- ==== Proof.lean ====
/-
  GraphUnpool: the one-hot matrix-product kernel against the scatter-add reference, over the extended reals.

  Both programs compute, for every batch `b`, row `row` and column `f`, the sum of `X[b, n, f]` over the old nodes `n`
  whose new index `idx[b, n]` is `row` (`Cert.Unpool.unpool`). The kernel does it tile by tile as
  `mask · X_hi + mask · X_lo` with a `0/1` mask built by comparing row numbers with shifted indices; at the ideal values
  `X_hi = X`, and `X_lo = X - X = 0` because the precondition makes every entry of `X` a real number. The reference
  scatters the rows of `X` into a zero array after the usual wrap-around of negative positions; the precondition's
  `0 ≤ idx` says that no position is negative, so the wrap-around never applies (where it would apply, for a word in
  `[-4096, -1]`, the reference would move the row to the end of the array while the kernel's mask selects no row).
  An index word that names no row (`4096` or more) is dropped by both programs, so no upper bound is assumed.
  The second result is the argument `A`, which neither program touches.

  The three frames are the runs themselves with the results dropped; the ideal pass rewrote nothing in the kernel, so
  `preserves` is `True`.
-/
import proofs.«424910_j53309134078318_2_alg».proof.Defs
import proofs.«424910_j53309134078318_2_alg».proof.Proof.Gen.Kernel
import proofs.«424910_j53309134078318_2_alg».proof.Proof.Gen.KernelIdeal
import proofs.«424910_j53309134078318_2_alg».proof.Proof.Gen.ReferenceIdeal
import proofs.«424910_j53309134078318_2_alg».proof.Proof.Gen.Pre_finite_inputs
import proofs.«424910_j53309134078318_2_alg».proof.Proof.KernelFrame
import proofs.«424910_j53309134078318_2_alg».proof.Proof.KernelIdealFrame
import proofs.«424910_j53309134078318_2_alg».proof.Proof.Gen.ReferenceIdeal.Run
import proofs.«424910_j53309134078318_2_alg».proof.Proof.Gen.ReferenceIdeal.Read
import proofs.«424910_j53309134078318_2_alg».proof.Proof.Domain
import proofs.«424910_j53309134078318_2_alg».proof.Proof.KernelValue
import proofs.«424910_j53309134078318_2_alg».proof.Proof.Scatter
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => ⟨(h c).2.2.1, (h c).2.1, (h c).2.2.2.2⟩)
    (Cert.ReferenceIdeal.Value.run (F := Ideal) m ρ)

/-- From memories that agree on the arguments both programs end with the unpooled array of `X` and `idx` as the first
    result and `A` as the second. -/
theorem algebraic : Cert.algebraic_KernelIdeal_ReferenceIdeal := by
  intro m ρ m' ρ' hpre hagree
  have hdom := fun c => Cert.Pre_finite_inputs.Domain.of_pre _ _ _ (hpre c)
  refine ⟨fun c => Cert.Unpool.unpool (Cert.KernelIdeal.Whole.Xarg m c) (Cert.KernelIdeal.Whole.Iarg m c),
    fun c => m ((c.tc : Thread Cert.KernelIdeal.nD Cert.KernelIdeal.τ).loc Cert.KernelIdeal.main_arg1), ?_, ?_⟩
  · refine (θ_run Cert.KernelIdeal.defs _ _).mono (fun r h c => ⟨(h c).1, (h c).2.2.1, (h c).2.1, (h c).2.2.1, (h c).2.2.2⟩)
      (Cert.KernelIdeal.Whole.run m ρ fun c => (hdom c).1)
  · refine (θ_run Cert.ReferenceIdeal.defs _ _).mono (fun r h c => ⟨?_, ?_, (h c).2.2.1, (h c).2.2.2.1, (h c).2.2.2.2⟩)
      (Cert.ReferenceIdeal.Value.run (F := Ideal) m' ρ')
    · rw [(h c).1, Cert.ReferenceIdeal.Read.val_main_v18_eq, (hagree c).1, (hagree c).2.2]
      exact Cert.ReferenceIdeal.Scatter.scatter_eq_unpool _ _ (hdom c).2
    · rw [(h c).2.1, (hagree c).2.1]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
